-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x128 : Shape := ⟨2, ![1000, 128]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x1000 .f32) (main_arg1 : FVec F S1000x128 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S16384x1000 : Shape := ⟨2, ![16384, 1000]⟩
abbrev S1000x128 : Shape := ⟨2, ![1000, 128]⟩
abbrev S1000x16384 : Shape := ⟨2, ![1000, 16384]⟩
abbrev S16384x128 : Shape := ⟨2, ![16384, 128]⟩
abbrev S200x16384 : Shape := ⟨2, ![200, 16384]⟩
abbrev S200x128 : Shape := ⟨2, ![200, 128]⟩

abbrev nBuf : Space → Nat
  | .hbm => 4
  | .vmem => 5
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S1000x16384, .f32⟩
  | .hbm, ⟨3, _⟩ => ⟨S16384x128, .f32⟩
  | .local _ .vmem, ⟨0, _⟩ => ⟨S200x16384, .f32⟩
  | .local _ .vmem, ⟨1, _⟩ => ⟨S200x16384, .f32⟩
  | .local _ .vmem, ⟨2, _⟩ => ⟨S200x128, .f32⟩
  | .local _ .vmem, ⟨3, _⟩ => ⟨S200x128, .f32⟩
  | .local _ .vmem, ⟨4, _⟩ => ⟨S16384x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32_4 : BitVec 32 := 0#32
  let v9 : BitVec 1 := Scalar.cmpi .ne arg0 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S16384x1000_S1000x16384_1_0 : S16384x1000.Transposes [1, 0] S1000x16384
  inb_S200x16384_S200x16384_0_0 : ∀ a, (![0, 0] : Fin 2 → Nat) a + S200x16384.size a ≤ S200x16384.size a
  h_S200x16384 : 0 < S200x16384.numel
  shapeCasts_S200x16384_S200x16384 : S200x16384.ShapeCasts S200x16384
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  dot_S200x16384_S200x128_S16384x128_0_0_1_1_n_n_wf : DotDims.WF S200x16384 S200x128 S16384x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x16384.size a ≤ S1000x16384.size a
  hwx0_0 : ∀ i : grid0.Coords, EltTy.bits .f32 = 32 ∨ (Rect.block (s := S1000x16384) S200x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S1000x128.size a
  hwx0_1 : ∀ i : grid0.Coords, EltTy.bits .f32 = 32 ∨ (Rect.block (s := S1000x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S16384x128.size a
  hwx0_2 : ∀ i : grid0.Coords, EltTy.bits .f32 = 32 ∨ (Rect.block (s := S16384x128) S16384x128.size (cc0_transform_2 i) (hinb0_2 i)).WholeWords (EltTy.packing .f32)

variable [Facts₀]

def dot_S200x16384_S200x128_S16384x128_0_0_1_1_n_n : DotDims S200x16384 S200x128 S16384x128 where
  lhsContracting := [0]
  rhsContracting := [0]
  lhsNonContracting := [1]
  rhsNonContracting := [1]
  lhsBatch := []
  rhsBatch := []
  wf := dot_S200x16384_S200x128_S16384x128_0_0_1_1_n_n_wf

abbrev win0_0 : Pipeline.Window sig grid0 :=
  Pipeline.Window.ofSpec (Memref.whole main_v0) S200x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S1000x128 : Shape := ⟨2, ![1000, 128]⟩
abbrev S16384x128 : Shape := ⟨2, ![16384, 128]⟩

abbrev nBuf : Space → Nat
  | .hbm => 3
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S16384x128, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.K.Cases.lean ====
/-
  The two ways the matmul body runs on the K-split grid. The grid has five points, one per block of 200 rows of
  the contracted axis. At the first point the body overwrites the resident result block with the block product;
  at every later point it adds the block product to what the block already holds. Here: which points are which,
  that the result window is stored into at every point, and the body's run in each of the two cases, on any whole
  staging memrefs, with the list of stores it leaves in the result's buffer found by the run itself.
-/
import proofs.«160563_g72198400245902_cont_sun_c4_207_12_alg».proof.Proof.Gen.Kernel.Frame
import proofs.«160563_g72198400245902_cont_sun_c4_207_12_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point is which -/

/-- The first branch (overwrite) is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch (accumulate) is taken at every point but 0. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the result window whatever the grid coordinate: the window is never idle. -/
theorem live2 : ∀ i : grid0.Coords, cfg0.idle 2 i = false :=
  (by decide +kernel : ∀ i : grid0.Coords, idle0 2 i = false)

/-! ## The staging memrefs the pipeline hands the body at a point -/

abbrev mx (t : Fin cfg0.N) : Memref sig .tc .vmem S200x16384 .f32 := win0_0.stage (cfg0.slots t 0)
abbrev hmx (t : Fin cfg0.N) : (mx t).IsWhole := hstage0_0 ((cfg0.slots t 0).cast nbuf0_0)
abbrev mw (t : Fin cfg0.N) : Memref sig .tc .vmem S200x128 .f32 := win0_1.stage (cfg0.slots t 1)
abbrev hmw (t : Fin cfg0.N) : (mw t).IsWhole := hstage0_1 ((cfg0.slots t 1).cast nbuf0_1)
abbrev mo (t : Fin cfg0.N) : Memref sig .tc .vmem S16384x128 .f32 := win0_2.stage (cfg0.slots t 2)
abbrev hmo (t : Fin cfg0.N) : (mo t).IsWhole := hstage0_2 ((cfg0.slots t 2).cast nbuf0_2)

/-! ## The body's run, case by case -/

set_option maxHeartbeats 1000000 in
/-- At the first point: holding the two operand blocks `x`, `w` and the result's buffer at anything, the body runs
    and hands back the operand blocks as they were and the result's buffer with the stores `L` written. -/
noncomputable def runFirst (c : Dev nD) (i : grid0.Coords)
    (arg1 : Memref sig .tc .vmem S200x16384 .f32) (harg1 : arg1.IsWhole)
    (arg2 : Memref sig .tc .vmem S200x128 .f32) (harg2 : arg2.IsWhole)
    (arg3 : Memref sig .tc .vmem S16384x128 .f32) (harg3 : arg3.IsWhole)
    (h1 : k0_cond1 i = 1#1) (h2 : ¬ k0_cond2 i = 1#1)
    (x : Vec F S200x16384 .f32) (w : Vec F S200x128 .f32) :
    { L : List (View.Piece (Elt F) S16384x128 .f32) //
      ∀ (E : Set ℕ) (K : PUnit → sProp 𝕄),
        iprop(owns (c : Thread nD τ) arg1 fullShare x ∗ owns (c : Thread nD τ) arg2 fullShare w
            ∗ (∃ d, owns (c : Thread nD τ) arg3 fullShare d)
            ∗ (iprop(owns (c : Thread nD τ) arg1 fullShare x ∗ owns (c : Thread nD τ) arg2 fullShare w
                ∗ (∃ f, arg3.view.loc (c : Thread nD τ) ↦[arg3.view.set]{fullShare} arg3.view.writes (Elt F) f L)) -∗ K ⟨⟩))
          ⊢ wp frame (wpE (defs₀ (F := F)) Variants.none c none) E (cc0__matmul_body i arg1 harg1 arg2 harg2 arg3 harg3) K } := by
  refine ⟨?_, fun E K => ?run⟩
  case run =>
    simp only [cc0__matmul_body_eq_skeleton]; unfold cc0__matmul_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- At a later point: holding the two operand blocks and the result's buffer at the running sum `acc`, the body
    runs and hands back the operand blocks as they were and the result's buffer with the stores `L` written. -/
noncomputable def runLater (c : Dev nD) (i : grid0.Coords)
    (arg1 : Memref sig .tc .vmem S200x16384 .f32) (harg1 : arg1.IsWhole)
    (arg2 : Memref sig .tc .vmem S200x128 .f32) (harg2 : arg2.IsWhole)
    (arg3 : Memref sig .tc .vmem S16384x128 .f32) (harg3 : arg3.IsWhole)
    (h1 : ¬ k0_cond1 i = 1#1) (h2 : k0_cond2 i = 1#1)
    (x : Vec F S200x16384 .f32) (w : Vec F S200x128 .f32) (acc : Vec F S16384x128 .f32) :
    { L : List (View.Piece (Elt F) S16384x128 .f32) //
      ∀ (E : Set ℕ) (K : PUnit → sProp 𝕄),
        iprop(owns (c : Thread nD τ) arg1 fullShare x ∗ owns (c : Thread nD τ) arg2 fullShare w
            ∗ owns (c : Thread nD τ) arg3 fullShare acc
            ∗ (iprop(owns (c : Thread nD τ) arg1 fullShare x ∗ owns (c : Thread nD τ) arg2 fullShare w
                ∗ (∃ f, arg3.view.loc (c : Thread nD τ) ↦[arg3.view.set]{fullShare} arg3.view.writes (Elt F) f L)) -∗ K ⟨⟩))
          ⊢ wp frame (wpE (defs₀ (F := F)) Variants.none c none) E (cc0__matmul_body i arg1 harg1 arg2 harg2 arg3 harg3) K } := by
  refine ⟨?_, fun E K => ?run⟩
  case run =>
    simp only [cc0__matmul_body_eq_skeleton]; unfold cc0__matmul_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.K.Carried.lean ====
/-
  What the result's resident block holds point by point, and the frame of the K-split matmul.
  After point 0 the block holds the first block product; after point n + 1 it holds what it held after point n
  plus block n + 1's product: the pipeline does not write the block back between points (it writes it back after
  the last point only), so the body finds at a later point what it left at the point before. With that as the proof
  data the body meets the pipeline's obligation at every point, and the launch runs: every execution terminates,
  the argument arrays unchanged, the result array at what the library computes from the proof data.
-/
import proofs.«160563_g72198400245902_cont_sun_c4_207_12_alg».proof.Proof.Gen.Kernel.Frame
import proofs.«160563_g72198400245902_cont_sun_c4_207_12_alg».proof.Proof.Gen.Kernel.Skeleton
import proofs.«160563_g72198400245902_cont_sun_c4_207_12_alg».proof.Proof.K.Cases
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result's buffer -/

/-- One staging buffer of the result window, through which its contents are read (any view reads a covering list
    of stores the same). -/
abbrev VO : View sig .tc .vmem S16384x128 .f32 := (Memref.whole cc0_stg2_0 : Memref sig .tc .vmem S16384x128 .f32).view

/-- The first point's stores cover the block. -/
theorem coverFirst (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) (y : S16384x128.Idx) :
    ∃ pc ∈ (runFirst c i a1 h1 a2 h2 a3 h3 hc1 hc2 x w).1, y ∈ pc.1.set :=
  View.cover_of_tiledL (runFirst c i a1 h1 a2 h2 a3 h3 hc1 hc2 x w).1 S16384x128.size (by sl_kernel_rfl) y

/-- What the first point leaves in the result's buffer: its stores read back. -/
def leftFirst (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) : Vec F S16384x128 .f32 :=
  VO.read (Elt F) (VO.writes (Elt F) VO.junk (runFirst c i a1 h1 a2 h2 a3 h3 hc1 hc2 x w).1)

/-- A later point's stores cover the block. -/
theorem coverLater (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) (y : S16384x128.Idx) :
    ∃ pc ∈ (runLater c i a1 h1 a2 h2 a3 h3 hc1 hc2 x w acc).1, y ∈ pc.1.set :=
  View.cover_of_tiledL (runLater c i a1 h1 a2 h2 a3 h3 hc1 hc2 x w acc).1 S16384x128.size (by sl_kernel_rfl) y

/-- What a later point leaves in the result's buffer, having found `acc` there. -/
def leftLater (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) : Vec F S16384x128 .f32 :=
  VO.read (Elt F) (VO.writes (Elt F) VO.junk (runLater c i a1 h1 a2 h2 a3 h3 hc1 hc2 x w acc).1)

theorem hz : (![0, 0] : Fin 2 → Nat) = fun _ => 0 := funext fun a => by fin_cases a <;> rfl

/-- The first point leaves the block product of its two operand blocks. -/
theorem leftFirst_eq (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) :
    leftFirst c i a1 h1 a2 h2 a3 h3 hc1 hc2 x w = k0_pay1 x w := by
  unfold leftFirst
  rw [View.read_writes_eq_canon _ _ _ (coverFirst c i a1 h1 a2 h2 a3 h3 hc1 hc2 x w)]
  unfold runFirst
  dsimp only
  sl_unfold_words
  rw [View.canon_unit_zero hz]
  simp only [View.readAt_eq_ld, h1.read_unread, h2.read_unread, View.ld_unit_zero (S := S200x16384) hz, View.ld_unit_zero (S := S200x128) hz]

/-- A later point leaves what it found plus the block product of its two operand blocks. -/
theorem leftLater_eq (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) :
    leftLater c i a1 h1 a2 h2 a3 h3 hc1 hc2 x w acc = k0_pay2 x w acc := by
  unfold leftLater
  rw [View.read_writes_eq_canon _ _ _ (coverLater c i a1 h1 a2 h2 a3 h3 hc1 hc2 x w acc)]
  unfold runLater
  dsimp only
  sl_unfold_words
  rw [View.canon_unit_zero hz]
  simp only [View.readAt_eq_ld, h1.read_unread, h2.read_unread, h3.read_unread, View.ld_unit_zero (S := S200x16384) hz, View.ld_unit_zero (S := S200x128) hz, View.ld_unit_zero (S := S16384x128) hz]

/-! ## The resident block after each point -/

/-- The resident result block after the body at position `n` of the grid: at 0 what the first case leaves of the
    point's operand blocks; at `n + 1` what the later case leaves of the point's operand blocks over the block as
    position `n` left it. -/
def partialAt (c : Dev nD) : (n : ℕ) → n < cfg0.N → Vec F S16384x128 .f32
  | 0, hn => leftFirst c (grid0.coords ⟨0, hn⟩) (mx ⟨0, hn⟩) (hmx ⟨0, hn⟩) (mw ⟨0, hn⟩) (hmw ⟨0, hn⟩) (mo ⟨0, hn⟩) (hmo ⟨0, hn⟩)
      ((first_iff ⟨0, hn⟩).mpr rfl) (fun h => (later_iff ⟨0, hn⟩).mp h rfl) (iblk m c 0 ⟨0, hn⟩) (iblk m c 1 ⟨0, hn⟩)
  | n + 1, hn => leftLater c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩)
      (fun h => Nat.succ_ne_zero n ((first_iff ⟨n + 1, hn⟩).mp h)) ((later_iff ⟨n + 1, hn⟩).mpr (Nat.succ_ne_zero n))
      (iblk m c 0 ⟨n + 1, hn⟩) (iblk m c 1 ⟨n + 1, hn⟩) (partialAt c n (Nat.lt_of_succ_lt hn))

/-- At point 0. -/
theorem partialAt_first (c : Dev nD) (t : Fin cfg0.N) (h0 : t.val = 0) :
    partialAt m c t.val t.isLt = leftFirst c (grid0.coords t) (mx t) (hmx t) (mw t) (hmw t) (mo t) (hmo t)
      ((first_iff t).mpr h0) (fun h => (later_iff t).mp h h0) (iblk m c 0 t) (iblk m c 1 t) := by
  obtain ⟨n, hn⟩ := t
  cases n with
  | zero => rfl
  | succ n => exact absurd h0 (Nat.succ_ne_zero n)

/-- At a later point. -/
theorem partialAt_later (c : Dev nD) (t : Fin cfg0.N) (h0 : t.val ≠ 0) :
    partialAt m c t.val t.isLt = leftLater c (grid0.coords t) (mx t) (hmx t) (mw t) (hmw t) (mo t) (hmo t)
      (fun h => h0 ((first_iff t).mp h)) ((later_iff t).mpr h0) (iblk m c 0 t) (iblk m c 1 t)
      (partialAt m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each operand's buffer at its
    block and the result's at the running sum; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => partialAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = partialAt m c t.val t.isLt := by dsimp only [dats]

/-- Each operand's current staging buffer holds its block at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- At a later point the result's staging buffer holds what the body left at the point before: the block is not
    written back in between, the window is stored into at every point, and its block is the whole array. -/
theorem before_o_later (c : Dev nD) (t : Fin cfg0.N) (h0 : t.val ≠ 0) (d) :
    (dats m 0 c).before 2 t d = partialAt m c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (mw t) fullShare ((dats m 0 c).after 1 t)
    ∗ owns (c : Thread nD τ) (mo t) fullShare ((dats m 0 c).after 2 t))

set_option maxHeartbeats 800000 in
/-- The body at any point: the operands' buffers hold their blocks; at point 0 the result's buffer holds anything and
    the first case's run applies, at a later point it holds the running sum and the later case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val = 0
  · rw [partialAt_first m c t h0]
    unfold leftFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [partialAt_later m c t h0]
    simp only [before_o_later m c t h0]
    unfold leftLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

end Cert.Kernel.Body

end
-- ==== Proof.K.Launch.lean ====
/-
  The launch of the K-split matmul. The body's runs, case by case, meet the pipeline's obligation at every point:
  the result window is stored into at every point, so what the body must leave there is the running sum the proof
  data state. The launch then gives the run — every execution terminates, each array of the pipeline at what the
  library computes from the proof data, every other buffer as the region found it — and from it the frame: the two
  argument arrays end as launched.
-/
import proofs.«160563_g72198400245902_cont_sun_c4_207_12_alg».proof.Proof.Gen.Kernel.Frame
import proofs.«160563_g72198400245902_cont_sun_c4_207_12_alg».proof.Proof.Gen.Kernel.Skeleton
import proofs.«160563_g72198400245902_cont_sun_c4_207_12_alg».proof.Proof.K.Carried
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's body obligation, at every point: the result window is live everywhere, so what the body must
    leave is the stated contents at every point. -/
theorem body_obligation (c : Dev nD) : BodyObligation (dats (F := F) m 0 c) (defs₀ (F := F)) Variants.none () Set.univ := fun t => by
  rw [bigSep_W0, bigSep_W0]
  have hl : idle0 2 (grid0.coords t) = false := live2 _
  simp only [hl]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Cases.lean ====
/-
  The two ways the matmul body runs on the K-split grid. The grid has five points, one per block of 200 rows of
  the contracted axis. At the first point the body overwrites the resident result block with the block product;
  at every later point it adds the block product to what the block already holds. Here: which points are which,
  that the result window is stored into at every point, and the body's run in each of the two cases, on any whole
  staging memrefs, with the list of stores it leaves in the result's buffer found by the run itself.
-/
import proofs.«160563_g72198400245902_cont_sun_c4_207_12_alg».proof.Proof.Gen.KernelIdeal.Frame
import proofs.«160563_g72198400245902_cont_sun_c4_207_12_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point is which -/

/-- The first branch (overwrite) is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch (accumulate) is taken at every point but 0. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the result window whatever the grid coordinate: the window is never idle. -/
theorem live2 : ∀ i : grid0.Coords, cfg0.idle 2 i = false :=
  (by decide +kernel : ∀ i : grid0.Coords, idle0 2 i = false)

/-! ## The staging memrefs the pipeline hands the body at a point -/

abbrev mx (t : Fin cfg0.N) : Memref sig .tc .vmem S200x16384 .f32 := win0_0.stage (cfg0.slots t 0)
abbrev hmx (t : Fin cfg0.N) : (mx t).IsWhole := hstage0_0 ((cfg0.slots t 0).cast nbuf0_0)
abbrev mw (t : Fin cfg0.N) : Memref sig .tc .vmem S200x128 .f32 := win0_1.stage (cfg0.slots t 1)
abbrev hmw (t : Fin cfg0.N) : (mw t).IsWhole := hstage0_1 ((cfg0.slots t 1).cast nbuf0_1)
abbrev mo (t : Fin cfg0.N) : Memref sig .tc .vmem S16384x128 .f32 := win0_2.stage (cfg0.slots t 2)
abbrev hmo (t : Fin cfg0.N) : (mo t).IsWhole := hstage0_2 ((cfg0.slots t 2).cast nbuf0_2)

/-! ## The body's run, case by case -/

set_option maxHeartbeats 1000000 in
/-- At the first point: holding the two operand blocks `x`, `w` and the result's buffer at anything, the body runs
    and hands back the operand blocks as they were and the result's buffer with the stores `L` written. -/
noncomputable def runFirst (c : Dev nD) (i : grid0.Coords)
    (arg1 : Memref sig .tc .vmem S200x16384 .f32) (harg1 : arg1.IsWhole)
    (arg2 : Memref sig .tc .vmem S200x128 .f32) (harg2 : arg2.IsWhole)
    (arg3 : Memref sig .tc .vmem S16384x128 .f32) (harg3 : arg3.IsWhole)
    (h1 : k0_cond1 i = 1#1) (h2 : ¬ k0_cond2 i = 1#1)
    (x : Vec F S200x16384 .f32) (w : Vec F S200x128 .f32) :
    { L : List (View.Piece (Elt F) S16384x128 .f32) //
      ∀ (E : Set ℕ) (K : PUnit → sProp 𝕄),
        iprop(owns (c : Thread nD τ) arg1 fullShare x ∗ owns (c : Thread nD τ) arg2 fullShare w
            ∗ (∃ d, owns (c : Thread nD τ) arg3 fullShare d)
            ∗ (iprop(owns (c : Thread nD τ) arg1 fullShare x ∗ owns (c : Thread nD τ) arg2 fullShare w
                ∗ (∃ f, arg3.view.loc (c : Thread nD τ) ↦[arg3.view.set]{fullShare} arg3.view.writes (Elt F) f L)) -∗ K ⟨⟩))
          ⊢ wp frame (wpE (defs₀ (F := F)) Variants.none c none) E (cc0__matmul_body i arg1 harg1 arg2 harg2 arg3 harg3) K } := by
  refine ⟨?_, fun E K => ?run⟩
  case run =>
    simp only [cc0__matmul_body_eq_skeleton]; unfold cc0__matmul_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- At a later point: holding the two operand blocks and the result's buffer at the running sum `acc`, the body
    runs and hands back the operand blocks as they were and the result's buffer with the stores `L` written. -/
noncomputable def runLater (c : Dev nD) (i : grid0.Coords)
    (arg1 : Memref sig .tc .vmem S200x16384 .f32) (harg1 : arg1.IsWhole)
    (arg2 : Memref sig .tc .vmem S200x128 .f32) (harg2 : arg2.IsWhole)
    (arg3 : Memref sig .tc .vmem S16384x128 .f32) (harg3 : arg3.IsWhole)
    (h1 : ¬ k0_cond1 i = 1#1) (h2 : k0_cond2 i = 1#1)
    (x : Vec F S200x16384 .f32) (w : Vec F S200x128 .f32) (acc : Vec F S16384x128 .f32) :
    { L : List (View.Piece (Elt F) S16384x128 .f32) //
      ∀ (E : Set ℕ) (K : PUnit → sProp 𝕄),
        iprop(owns (c : Thread nD τ) arg1 fullShare x ∗ owns (c : Thread nD τ) arg2 fullShare w
            ∗ owns (c : Thread nD τ) arg3 fullShare acc
            ∗ (iprop(owns (c : Thread nD τ) arg1 fullShare x ∗ owns (c : Thread nD τ) arg2 fullShare w
                ∗ (∃ f, arg3.view.loc (c : Thread nD τ) ↦[arg3.view.set]{fullShare} arg3.view.writes (Elt F) f L)) -∗ K ⟨⟩))
          ⊢ wp frame (wpE (defs₀ (F := F)) Variants.none c none) E (cc0__matmul_body i arg1 harg1 arg2 harg2 arg3 harg3) K } := by
  refine ⟨?_, fun E K => ?run⟩
  case run =>
    simp only [cc0__matmul_body_eq_skeleton]; unfold cc0__matmul_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.KI.Carried.lean ====
/-
  What the result's resident block holds point by point, and the frame of the K-split matmul.
  After point 0 the block holds the first block product; after point n + 1 it holds what it held after point n
  plus block n + 1's product: the pipeline does not write the block back between points (it writes it back after
  the last point only), so the body finds at a later point what it left at the point before. With that as the proof
  data the body meets the pipeline's obligation at every point, and the launch runs: every execution terminates,
  the argument arrays unchanged, the result array at what the library computes from the proof data.
-/
import proofs.«160563_g72198400245902_cont_sun_c4_207_12_alg».proof.Proof.Gen.KernelIdeal.Frame
import proofs.«160563_g72198400245902_cont_sun_c4_207_12_alg».proof.Proof.Gen.KernelIdeal.Skeleton
import proofs.«160563_g72198400245902_cont_sun_c4_207_12_alg».proof.Proof.KI.Cases
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result's buffer -/

/-- One staging buffer of the result window, through which its contents are read (any view reads a covering list
    of stores the same). -/
abbrev VO : View sig .tc .vmem S16384x128 .f32 := (Memref.whole cc0_stg2_0 : Memref sig .tc .vmem S16384x128 .f32).view

/-- The first point's stores cover the block. -/
theorem coverFirst (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) (y : S16384x128.Idx) :
    ∃ pc ∈ (runFirst c i a1 h1 a2 h2 a3 h3 hc1 hc2 x w).1, y ∈ pc.1.set :=
  View.cover_of_tiledL (runFirst c i a1 h1 a2 h2 a3 h3 hc1 hc2 x w).1 S16384x128.size (by sl_kernel_rfl) y

/-- What the first point leaves in the result's buffer: its stores read back. -/
def leftFirst (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) : Vec F S16384x128 .f32 :=
  VO.read (Elt F) (VO.writes (Elt F) VO.junk (runFirst c i a1 h1 a2 h2 a3 h3 hc1 hc2 x w).1)

/-- A later point's stores cover the block. -/
theorem coverLater (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) (y : S16384x128.Idx) :
    ∃ pc ∈ (runLater c i a1 h1 a2 h2 a3 h3 hc1 hc2 x w acc).1, y ∈ pc.1.set :=
  View.cover_of_tiledL (runLater c i a1 h1 a2 h2 a3 h3 hc1 hc2 x w acc).1 S16384x128.size (by sl_kernel_rfl) y

/-- What a later point leaves in the result's buffer, having found `acc` there. -/
def leftLater (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) : Vec F S16384x128 .f32 :=
  VO.read (Elt F) (VO.writes (Elt F) VO.junk (runLater c i a1 h1 a2 h2 a3 h3 hc1 hc2 x w acc).1)

theorem hz : (![0, 0] : Fin 2 → Nat) = fun _ => 0 := funext fun a => by fin_cases a <;> rfl

/-- The first point leaves the block product of its two operand blocks. -/
theorem leftFirst_eq (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : k0_cond1 i = 1#1) (hc2 : ¬ k0_cond2 i = 1#1)
    (x : Vec F S200x16384 .f32) (w : Vec F S200x128 .f32) :
    leftFirst c i a1 h1 a2 h2 a3 h3 hc1 hc2 x w = k0_pay1 x w := by
  unfold leftFirst
  rw [View.read_writes_eq_canon _ _ _ (coverFirst c i a1 h1 a2 h2 a3 h3 hc1 hc2 x w)]
  unfold runFirst
  dsimp only
  sl_unfold_words
  rw [View.canon_unit_zero hz]
  simp only [View.readAt_eq_ld, h1.read_unread, h2.read_unread, View.ld_unit_zero (S := S200x16384) hz, View.ld_unit_zero (S := S200x128) hz]

/-- A later point leaves what it found plus the block product of its two operand blocks. -/
theorem leftLater_eq (c : Dev nD) (i : grid0.Coords)
    (a1 : Memref sig .tc .vmem S200x16384 .f32) (h1 : a1.IsWhole) (a2 : Memref sig .tc .vmem S200x128 .f32) (h2 : a2.IsWhole)
    (a3 : Memref sig .tc .vmem S16384x128 .f32) (h3 : a3.IsWhole) (hc1 : ¬ k0_cond1 i = 1#1) (hc2 : k0_cond2 i = 1#1)
    (x : Vec F S200x16384 .f32) (w : Vec F S200x128 .f32) (acc : Vec F S16384x128 .f32) :
    leftLater c i a1 h1 a2 h2 a3 h3 hc1 hc2 x w acc = k0_pay2 x w acc := by
  unfold leftLater
  rw [View.read_writes_eq_canon _ _ _ (coverLater c i a1 h1 a2 h2 a3 h3 hc1 hc2 x w acc)]
  unfold runLater
  dsimp only
  sl_unfold_words
  rw [View.canon_unit_zero hz]
  simp only [View.readAt_eq_ld, h1.read_unread, h2.read_unread, h3.read_unread, View.ld_unit_zero (S := S200x16384) hz, View.ld_unit_zero (S := S200x128) hz, View.ld_unit_zero (S := S16384x128) hz]

/-! ## The resident block after each point -/

/-- The resident result block after the body at position `n` of the grid: at 0 what the first case leaves of the
    point's operand blocks; at `n + 1` what the later case leaves of the point's operand blocks over the block as
    position `n` left it. -/
def partialAt (c : Dev nD) : (n : ℕ) → n < cfg0.N → Vec F S16384x128 .f32
  | 0, hn => leftFirst c (grid0.coords ⟨0, hn⟩) (mx ⟨0, hn⟩) (hmx ⟨0, hn⟩) (mw ⟨0, hn⟩) (hmw ⟨0, hn⟩) (mo ⟨0, hn⟩) (hmo ⟨0, hn⟩)
      ((first_iff ⟨0, hn⟩).mpr rfl) (fun h => (later_iff ⟨0, hn⟩).mp h rfl) (iblk m c 0 ⟨0, hn⟩) (iblk m c 1 ⟨0, hn⟩)
  | n + 1, hn => leftLater c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩)
      (fun h => Nat.succ_ne_zero n ((first_iff ⟨n + 1, hn⟩).mp h)) ((later_iff ⟨n + 1, hn⟩).mpr (Nat.succ_ne_zero n))
      (iblk m c 0 ⟨n + 1, hn⟩) (iblk m c 1 ⟨n + 1, hn⟩) (partialAt c n (Nat.lt_of_succ_lt hn))

/-- At point 0. -/
theorem partialAt_first (c : Dev nD) (t : Fin cfg0.N) (h0 : t.val = 0) :
    partialAt m c t.val t.isLt = leftFirst c (grid0.coords t) (mx t) (hmx t) (mw t) (hmw t) (mo t) (hmo t)
      ((first_iff t).mpr h0) (fun h => (later_iff t).mp h h0) (iblk m c 0 t) (iblk m c 1 t) := by
  obtain ⟨n, hn⟩ := t
  cases n with
  | zero => rfl
  | succ n => exact absurd h0 (Nat.succ_ne_zero n)

/-- At a later point. -/
theorem partialAt_later (c : Dev nD) (t : Fin cfg0.N) (h0 : t.val ≠ 0) :
    partialAt m c t.val t.isLt = leftLater c (grid0.coords t) (mx t) (hmx t) (mw t) (hmw t) (mo t) (hmo t)
      (fun h => h0 ((first_iff t).mp h)) ((later_iff t).mpr h0) (iblk m c 0 t) (iblk m c 1 t)
      (partialAt m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each operand's buffer at its
    block and the result's at the running sum; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => partialAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = partialAt m c t.val t.isLt := by dsimp only [dats]

/-- Each operand's current staging buffer holds its block at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- At a later point the result's staging buffer holds what the body left at the point before: the block is not
    written back in between, the window is stored into at every point, and its block is the whole array. -/
theorem before_o_later (c : Dev nD) (t : Fin cfg0.N) (h0 : t.val ≠ 0) (d) :
    (dats m 0 c).before 2 t d = partialAt m c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (mw t) fullShare ((dats m 0 c).after 1 t)
    ∗ owns (c : Thread nD τ) (mo t) fullShare ((dats m 0 c).after 2 t))

set_option maxHeartbeats 800000 in
/-- The body at any point: the operands' buffers hold their blocks; at point 0 the result's buffer holds anything and
    the first case's run applies, at a later point it holds the running sum and the later case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val = 0
  · rw [partialAt_first m c t h0]
    unfold leftFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [partialAt_later m c t h0]
    simp only [before_o_later m c t h0]
    unfold leftLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

end Cert.KernelIdeal.Body

end
-- ==== Proof.KI.Launch.lean ====
/-
  The launch of the K-split matmul. The body's runs, case by case, meet the pipeline's obligation at every point:
  the result window is stored into at every point, so what the body must leave there is the running sum the proof
  data state. The launch then gives the run — every execution terminates, each array of the pipeline at what the
  library computes from the proof data, every other buffer as the region found it — and from it the frame: the two
  argument arrays end as launched.
-/
import proofs.«160563_g72198400245902_cont_sun_c4_207_12_alg».proof.Proof.Gen.KernelIdeal.Frame
import proofs.«160563_g72198400245902_cont_sun_c4_207_12_alg».proof.Proof.Gen.KernelIdeal.Skeleton
import proofs.«160563_g72198400245902_cont_sun_c4_207_12_alg».proof.Proof.KI.Carried
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's body obligation, at every point: the result window is live everywhere, so what the body must
    leave is the stated contents at every point. -/
theorem body_obligation (c : Dev nD) : BodyObligation (dats (F := F) m 0 c) (defs₀ (F := F)) Variants.none () Set.univ := fun t => by
  rw [bigSep_W0, bigSep_W0]
  have hl : idle0 2 (grid0.coords t) = false := live2 _
  simp only [hl]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Spec.lean ====
/-
  The fact layer's product as one function of the two argument arrays, and its K-split form.
  For activations x of shape 16384 × 1000 and a fact table w of shape 1000 × 128 over the extended reals, entry
  (r, c) of the product is the sum over the 1000 constants k of x[r, k] · w[k, c]. The contracted axis is cut into
  5 consecutive blocks of 200; the product is the sum over the blocks of the block products, and, the five block
  products added one after the other starting from the first, that running sum after the last block is the product.
  Only commutativity and associativity of the extended reals' addition are used, so no finiteness is needed.
-/
import Mathlib.Algebra.BigOperators.Fin
import Idealize.ShloMosaic.PureOps.Ideal
import Idealize.ShloMosaic.Lib.ValueIdx
import proofs.«160563_g72198400245902_cont_sun_c4_207_12_alg».proof.Proof.LibTiles

noncomputable section

namespace Cert.FactLayer

open Idealize.ShloMosaic Idealize.ShloMosaic.ValueIdx

/-- The activations' shape, the fact table's, and the product's. -/
abbrev SX : Shape := ⟨2, ![16384, 1000]⟩
abbrev SW : Shape := ⟨2, ![1000, 128]⟩
abbrev SO : Shape := ⟨2, ![16384, 128]⟩

/-- The product x · w: entry (r, c) is the sum over the constants k of x[r, k] · w[k, c]. -/
def product (x : SX.Idx → EReal) (w : SW.Idx → EReal) : SO.Idx → EReal :=
  fun i => ∑ k : Fin 1000, x (ix2 (i 0) k) * w (ix2 k (i 1))

/-- Constant number r of block t, among 5 blocks of 200. -/
def blockRow (t : Fin 5) (r : Fin 200) : Fin 1000 := ⟨t.val * 200 + r.val, Cert.LibTiles.tile_lt t r⟩

theorem blockRow_val (t : Fin 5) (r : Fin 200) : (blockRow t r).val = t.val * 200 + r.val := rfl

/-- Block t's share of the product: the sum over the block's 200 constants. -/
def blockProduct (x : SX.Idx → EReal) (w : SW.Idx → EReal) (t : Fin 5) : SO.Idx → EReal :=
  fun i => ∑ r : Fin 200, x (ix2 (i 0) (blockRow t r)) * w (ix2 (blockRow t r) (i 1))

/-- The product is the sum of the five block products. -/
theorem product_eq_sum_blocks (x : SX.Idx → EReal) (w : SW.Idx → EReal) (i : SO.Idx) :
    product x w i = ∑ t : Fin 5, blockProduct x w t i :=
  Cert.LibTiles.tile_sum 5 200 (fun k : Fin (5 * 200) => x (ix2 (i 0) k) * w (ix2 k (i 1)))

/-- The running sum of block products: the first block's product, then each next block's added on. -/
def running (x : SX.Idx → EReal) (w : SW.Idx → EReal) : (n : ℕ) → n < 5 → SO.Idx → EReal
  | 0, h => blockProduct x w ⟨0, h⟩
  | n + 1, h => fun i => running x w n (Nat.lt_of_succ_lt h) i + blockProduct x w ⟨n + 1, h⟩ i

/-- After the last block the running sum is the product. -/
theorem running_last (x : SX.Idx → EReal) (w : SW.Idx → EReal) :
    running x w 4 (by decide) = product x w := by
  funext i
  rw [product_eq_sum_blocks, Fin.sum_univ_five]
  rfl

end Cert.FactLayer

end
-- ==== Proof.KI.Value.lean ====
/-
  What the K-split matmul leaves in the result array, over the extended reals.
  The matrix unit's product of a 200 × 16384 block of the transposed activations with a 200 × 128 block of the fact
  table, into the zero accumulator, is at entry (p, q) the sum over the block's 200 rows r of xt[r, p] · w[r, q] (the
  narrowing to bf16 is the identity on the extended reals). Block t of the transposed activations is, entry by entry,
  the activations at the swapped index with the row moved down by 200 t; block t of the fact table is the table with
  the row moved down by 200 t. So the first point leaves block 0's share of the product and each later point adds its
  block's share: after point n the resident block is the running sum of block products, and after the last point it
  is the product. The block is the whole result array and is written back after the last point, so the array ends at
  the product of the two argument arrays.
-/
import proofs.«160563_g72198400245902_cont_sun_c4_207_12_alg».proof.Proof.KI.Launch
import proofs.«160563_g72198400245902_cont_sun_c4_207_12_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Result

open Cert.KernelIdeal Cert.KernelIdeal.Gen Cert.KernelIdeal.Body Cert.FactLayer
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The block product at an entry -/

theorem lhs_k (i : S16384x128.Idx) (q : dot_S200x16384_S200x128_S16384x128_0_0_1_1_n_n.contr.Idx) :
    (dot_S200x16384_S200x128_S16384x128_0_0_1_1_n_n.lhsIdx i q 0).val = (q ⟨0, by decide⟩).val :=
  dot_S200x16384_S200x128_S16384x128_0_0_1_1_n_n.lhsIdx_val_of_single rfl i q
theorem lhs_row (i : S16384x128.Idx) (q : dot_S200x16384_S200x128_S16384x128_0_0_1_1_n_n.contr.Idx) :
    (dot_S200x16384_S200x128_S16384x128_0_0_1_1_n_n.lhsIdx i q 1).val = (i 0).val := by
  unfold DotDims.lhsIdx
  rw [dif_neg (show ¬(1 : Fin S200x16384.rank) ∈ dot_S200x16384_S200x128_S16384x128_0_0_1_1_n_n.lhsBatch by decide), dif_pos (show (1 : Fin S200x16384.rank) ∈ dot_S200x16384_S200x128_S16384x128_0_0_1_1_n_n.lhsNonContracting by decide)]
  rfl
theorem rhs_k (i : S16384x128.Idx) (q : dot_S200x16384_S200x128_S16384x128_0_0_1_1_n_n.contr.Idx) :
    (dot_S200x16384_S200x128_S16384x128_0_0_1_1_n_n.rhsIdx i q 0).val = (q ⟨0, by decide⟩).val :=
  dot_S200x16384_S200x128_S16384x128_0_0_1_1_n_n.rhsIdx_val_of_single rfl i q
theorem rhs_col (i : S16384x128.Idx) (q : dot_S200x16384_S200x128_S16384x128_0_0_1_1_n_n.contr.Idx) :
    (dot_S200x16384_S200x128_S16384x128_0_0_1_1_n_n.rhsIdx i q 1).val = (i 1).val := by
  unfold DotDims.rhsIdx
  rw [dif_neg (show ¬(1 : Fin S200x128.rank) ∈ dot_S200x16384_S200x128_S16384x128_0_0_1_1_n_n.rhsBatch by decide), dif_pos (show (1 : Fin S200x128.rank) ∈ dot_S200x16384_S200x128_S16384x128_0_0_1_1_n_n.rhsNonContracting by decide)]
  rfl

/-- The product of two operand blocks at entry (p, q): the sum over the blocks' 200 rows. -/
theorem pay1_apply (x : Vec Ideal S200x16384 .f32) (w : Vec Ideal S200x128 .f32) (p : Fin 16384) (q : Fin 128) :
    k0_pay1 (F := Ideal) x w (ix2 p q) = ∑ r : Fin 200, x (ix2 r p) * w (ix2 r q) := by
  unfold k0_pay1
  refine (Ideal.matmul_constant_zero_apply dot_S200x16384_S200x128_S16384x128_0_0_1_1_n_n none _ _ (ix2 p q)).trans ?_
  rw [← Equiv.sum_comp (contrEquiv1 dot_S200x16384_S200x128_S16384x128_0_0_1_1_n_n 200 rfl rfl).symm]
  refine Finset.sum_congr rfl fun r _ => ?_
  have hr := contrEquiv1_symm_val dot_S200x16384_S200x128_S16384x128_0_0_1_1_n_n 200 rfl rfl r
  have el : dot_S200x16384_S200x128_S16384x128_0_0_1_1_n_n.lhsIdx (ix2 p q) ((contrEquiv1 dot_S200x16384_S200x128_S16384x128_0_0_1_1_n_n 200 rfl rfl).symm r) = ix2 r p := funext fun a => Fin.ext (by
    match a with
    | ⟨0, _⟩ => exact (lhs_k _ _).trans hr
    | ⟨1, _⟩ => exact lhs_row _ _)
  have er : dot_S200x16384_S200x128_S16384x128_0_0_1_1_n_n.rhsIdx (ix2 p q) ((contrEquiv1 dot_S200x16384_S200x128_S16384x128_0_0_1_1_n_n 200 rfl rfl).symm r) = ix2 r q := funext fun a => Fin.ext (by
    match a with
    | ⟨0, _⟩ => exact (rhs_k _ _).trans hr
    | ⟨1, _⟩ => exact rhs_col _ _)
  rw [el, er, truncf_apply, truncf_apply, shapeCast_self]

/-- A later point's payload at an entry: what the block held plus the block product. -/
theorem pay2_apply (x : Vec Ideal S200x16384 .f32) (w : Vec Ideal S200x128 .f32) (acc : Vec Ideal S16384x128 .f32) (p : Fin 16384) (q : Fin 128) :
    k0_pay2 (F := Ideal) x w acc (ix2 p q) = acc (ix2 p q) + ∑ r : Fin 200, x (ix2 r p) * w (ix2 r q) := by
  unfold k0_pay2
  refine (addf_apply _ _ (ix2 p q)).trans ?_
  rw [pay1_apply, shapeCast_self]

/-! ## The argument arrays and the operand blocks -/

/-- The activations and the fact table as launched, on core `c`. -/
abbrev xarr (c : Dev nD) : SX.Idx → EReal := m ((c : Thread nD τ).loc main_arg0)
abbrev warr (c : Dev nD) : SW.Idx → EReal := m ((c : Thread nD τ).loc main_arg1)

/-- The region finds the first window's array at the transposed activations. -/
theorem V_xt (c : Dev nD) : (V m c main_v0 : S1000x16384.Idx → EReal)
    = transpose S1000x16384 [1, 0] (xarr m c) transposes_S16384x1000_S1000x16384_1_0 := by
  dsimp only [V, hostOps0]; after_results

/-- Block t of each operand window starts at row 200 t and column 0. -/
theorem idx_ops : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Point t's two operand blocks, at their literal types. -/
abbrev xblk (c : Dev nD) (t : Fin cfg0.N) : Vec Ideal S200x16384 .f32 := iblk m c 0 t
abbrev wblk (c : Dev nD) (t : Fin cfg0.N) : Vec Ideal S200x128 .f32 := iblk m c 1 t

/-- Entry (r, p) of block t of the transposed activations is the activations at (p, 200 t + r). -/
theorem xblk_apply (c : Dev nD) (t : Fin cfg0.N) (r : Fin 200) (p : Fin 16384) (k : Fin 1000) (hk : k.val = t.val * 200 + r.val) :
    xblk m c t (ix2 r p) = xarr m c (ix2 p k) := by
  unfold xblk iblk
  show V m c main_v0 (((cfg0.win 0).blk t).view.emb (ix2 r p)) = _
  have he : ((cfg0.win 0).blk t).view.emb (ix2 r p) = (ix2 k p : S1000x16384.Idx) := by
    obtain ⟨e0, e1, -⟩ := idx_ops t
    funext a; apply Fin.ext
    match a with
    | ⟨0, _⟩ => show win0_0.index t (0 : Fin 2) * 200 + 1 * r.val = k.val; omega
    | ⟨1, _⟩ => show win0_0.index t (1 : Fin 2) * 16384 + 1 * p.val = p.val; omega
  rw [he, V_xt]
  exact transpose_ix2_apply _ _ k p

/-- Entry (r, q) of block t of the fact table is the table at (200 t + r, q). -/
theorem wblk_apply (c : Dev nD) (t : Fin cfg0.N) (r : Fin 200) (q : Fin 128) (k : Fin 1000) (hk : k.val = t.val * 200 + r.val) :
    wblk m c t (ix2 r q) = warr m c (ix2 k q) := by
  unfold wblk iblk
  show V m c main_arg1 (((cfg0.win 1).blk t).view.emb (ix2 r q)) = _
  have he : ((cfg0.win 1).blk t).view.emb (ix2 r q) = (ix2 k q : S1000x128.Idx) := by
    obtain ⟨-, -, e0, e1, -⟩ := idx_ops t
    funext a; apply Fin.ext
    match a with
    | ⟨0, _⟩ => show win0_1.index t (0 : Fin 2) * 200 + 1 * r.val = k.val; omega
    | ⟨1, _⟩ => show win0_1.index t (1 : Fin 2) * 128 + 1 * q.val = q.val; omega
  rw [he, V_main_arg1]

/-- The product of point t's two operand blocks is block t's share of the product of the argument arrays. -/
theorem blockShare (c : Dev nD) (t : Fin cfg0.N) (s : Fin 5) (hs : s.val = t.val) (p : Fin 16384) (q : Fin 128) :
    ∑ r : Fin 200, xblk m c t (ix2 r p) * wblk m c t (ix2 r q) = blockProduct (xarr m c) (warr m c) s (ix2 p q) := by
  unfold blockProduct
  refine Finset.sum_congr rfl fun r _ => ?_
  rw [xblk_apply m c t r p (blockRow s r) (by rw [blockRow_val, hs]), wblk_apply m c t r q (blockRow s r) (by rw [blockRow_val, hs])]

/-! ## The running sum -/

/-- After point n the resident block is the running sum of the first n + 1 block products. -/
theorem partialAt_eq (c : Dev nD) : ∀ (n : ℕ) (hn : n < cfg0.N) (hn' : n < 5),
    (partialAt m c n hn : SO.Idx → EReal) = running (xarr m c) (warr m c) n hn'
  | 0, hn, hn' => by
    refine (partialAt_first m c ⟨0, hn⟩ rfl).trans ?_
    rw [leftFirst_eq]
    funext i
    obtain ⟨p, q, rfl⟩ : ∃ (p : Fin 16384) (q : Fin 128), i = ix2 p q := ⟨i 0, i 1, eq_ix2 i⟩
    refine (pay1_apply (xblk m c ⟨0, hn⟩) (wblk m c ⟨0, hn⟩) p q).trans ?_
    exact blockShare m c ⟨0, hn⟩ ⟨0, hn'⟩ rfl p q
  | n + 1, hn, hn' => by
    refine (partialAt_later m c ⟨n + 1, hn⟩ (Nat.succ_ne_zero n)).trans ?_
    rw [leftLater_eq]
    funext i
    obtain ⟨p, q, rfl⟩ : ∃ (p : Fin 16384) (q : Fin 128), i = ix2 p q := ⟨i 0, i 1, eq_ix2 i⟩
    refine (pay2_apply (xblk m c ⟨n + 1, hn⟩) (wblk m c ⟨n + 1, hn⟩) (partialAt m c n (Nat.lt_of_succ_lt hn)) p q).trans ?_
    show _ = running (xarr m c) (warr m c) n (Nat.lt_of_succ_lt hn') (ix2 p q) + blockProduct (xarr m c) (warr m c) ⟨n + 1, hn'⟩ (ix2 p q)
    rw [blockShare m c ⟨n + 1, hn⟩ ⟨n + 1, hn'⟩ rfl p q]
    exact congrArg (· + _) (congrFun (partialAt_eq c n (Nat.lt_of_succ_lt hn) (Nat.lt_of_succ_lt hn')) (ix2 p q))

/-! ## The result array after the run -/

/-- What a writing-back point writes back is the product: only the last point writes back, and the block is the
    whole array. -/
theorem flushed_eq (c : Dev nD) (t : Fin cfg0.N) (hf : (cfg0.win 2).flush t = true) :
    (dats m 0 c).flushed 2 t = ((cfg0.win 2).blk t).view.read (Elt Ideal) (product (xarr m c) (warr m c)) := by
  have hN : t.val < 5 := lt_of_lt_of_eq t.isLt (show cfg0.N = 5 from N_0)
  have h4 : t.val = 4 := by have := (flush0_2 t).mp hf; omega
  show (cfg0.win 2).cut (grid0.coords t) ((dats m 0 c).after 2 t) = _
  rw [after_o]
  obtain ⟨n, hn⟩ := t
  dsimp only at h4
  subst h4
  funext j
  show partialAt m c 4 hn j = product (xarr m c) (warr m c) (((cfg0.win 2).blk ⟨4, hn⟩).view.emb j)
  rw [congrFun (partialAt_eq m c 4 hn (by decide)) j, running_last]
  refine congrArg _ ?_
  obtain ⟨-, -, -, -, e0, e1⟩ := idx_ops ⟨4, hn⟩
  funext a; apply Fin.ext
  match a with
  | ⟨0, _⟩ => show (j 0).val = win0_2.index ⟨4, hn⟩ (0 : Fin 2) * 16384 + 1 * (j 0).val; omega
  | ⟨1, _⟩ => show (j 1).val = win0_2.index ⟨4, hn⟩ (1 : Fin 2) * 128 + 1 * (j 1).val; omega

/-- Every entry of the result array lies in the last point's block. -/
theorem covered (i : S16384x128.Idx) : ∃ t : Fin cfg0.N, (cfg0.win 2).flush t = true ∧ i ∈ ((cfg0.win 2).blk t).view.set := by
  refine ⟨t0_4, (flush0_2 t0_4).mpr rfl, ?_⟩
  show i ∈ ((View.whole main_v1).slice (win0_2.rect t0_4)).set
  rw [View.set_slice_whole, Rect.mem_set_unit]
  obtain ⟨-, -, -, -, e0, e1⟩ := idx_ops t0_4
  intro a
  match a with
  | ⟨0, _⟩ =>
    show win0_2.index t0_4 (0 : Fin 2) * 16384 ≤ (i 0).val ∧ (i 0).val < win0_2.index t0_4 (0 : Fin 2) * 16384 + 16384
    have h0 : (i 0).val < 16384 := idx2_lt0 i; omega
  | ⟨1, _⟩ =>
    show win0_2.index t0_4 (1 : Fin 2) * 128 ≤ (i 1).val ∧ (i 1).val < win0_2.index t0_4 (1 : Fin 2) * 128 + 128
    have h1 : (i 1).val < 128 := idx2_lt1 i; omega

/-- The result array after the run is the product of the argument arrays. -/
theorem final (c : Dev nD) : (dats m 0 c).arrAt 2 cfg0.N = product (xarr m c) (warr m c) :=
  (dats m 0 c).arrAt_eq_of_cover 2 (product (xarr m c) (warr m c)) (fun t hf => flushed_eq m c t hf) covered

/-- The run, with the result named: every execution terminates with the result array at the product of the argument
    arrays and the argument arrays as launched. -/
theorem run : θ_run defs (onTc (τ := τ) (main (F := Ideal))) ⟨m, fun _ => 0, ρ⟩ (fun r => ∀ c : Dev nD,
      r.2.mem ((c.tc : Thread nD τ).loc main_v1) = product (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result is the product of its two arguments. Its one operation is a dot_general contracting the
  activations' axis 1 with the fact table's axis 0, which over the extended reals is, at entry (r, c), the sum over
  the 1000 constants k of x[r, k] · w[k, c]: the product's own definition, once the operand indices the generated
  read-back states are seen to be (r, k) and (k, c).
-/
import proofs.«160563_g72198400245902_cont_sun_c4_207_12_alg».proof.Proof.Gen.ReferenceIdeal.Read
import proofs.«160563_g72198400245902_cont_sun_c4_207_12_alg».proof.Proof.Spec

noncomputable section

namespace Cert.ReferenceIdeal.RefValue

open Cert.ReferenceIdeal Cert.ReferenceIdeal.Gen Cert.FactLayer
open Idealize.ShloMosaic Idealize.ShloMosaic.ValueIdx

/-- The reference's term is the product. -/
theorem result_eq (x : (⟨S16384x1000, .f32⟩ : BufTy).Contents (Elt Ideal)) (w : (⟨S1000x128, .f32⟩ : BufTy).Contents (Elt Ideal)) :
    Read.val_main_v0 (F := Ideal) x w = product x w := by
  funext i
  rw [Read.val_main_v0_apply]
  unfold product
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  rw [el, er]
  rfl

end Cert.ReferenceIdeal.RefValue

end
-- ==== Proof.lean ====
/- The fact layer's matmul, K-split: the kernel contracts the 1000 constants in 5 blocks of 200, one block per grid
   point, keeping the 16384 × 128 result resident — overwritten with the first block's product at point 0, each later
   block's product added on, written back once after the last point — and the reference is one matmul.
   Over the extended reals a change of float format is the identity and the matrix unit's product into zero is the
   plain sum, so the kernel's result is the running sum of the five block products, which is the sum over all 1000
   constants by re-association alone (no distributivity, so no finiteness of the inputs is used): both programs end at
   the same function of the two argument arrays, entry by entry (Proof/Spec.lean: the product and its K-split form;
   Proof/KI/Value.lean: the kernel's result array; Proof/RefValue.lean: the reference's).
   The kernel's frame, word-level and idealized, is the pipeline's launch over the body's two runs — the first point
   and the later points — with the resident block's contents stated point by point (Proof/K, Proof/KI: one text,
   generic in the float instance); the reference's frame is its run with the result dropped. The ideal pass rewrote
   nothing, so the idealization claim is trivial. -/
import proofs.«160563_g72198400245902_cont_sun_c4_207_12_alg».proof.Defs
import proofs.«160563_g72198400245902_cont_sun_c4_207_12_alg».proof.Proof.Gen.Kernel
import proofs.«160563_g72198400245902_cont_sun_c4_207_12_alg».proof.Proof.Gen.Kernel.Skeleton
import proofs.«160563_g72198400245902_cont_sun_c4_207_12_alg».proof.Proof.Gen.Kernel.Launch
import proofs.«160563_g72198400245902_cont_sun_c4_207_12_alg».proof.Proof.Gen.Kernel.Points
import proofs.«160563_g72198400245902_cont_sun_c4_207_12_alg».proof.Proof.Gen.Kernel.Frame
import proofs.«160563_g72198400245902_cont_sun_c4_207_12_alg».proof.Proof.Gen.KernelIdeal
import proofs.«160563_g72198400245902_cont_sun_c4_207_12_alg».proof.Proof.Gen.KernelIdeal.Skeleton
import proofs.«160563_g72198400245902_cont_sun_c4_207_12_alg».proof.Proof.Gen.KernelIdeal.Launch
import proofs.«160563_g72198400245902_cont_sun_c4_207_12_alg».proof.Proof.Gen.KernelIdeal.Points
import proofs.«160563_g72198400245902_cont_sun_c4_207_12_alg».proof.Proof.Gen.KernelIdeal.Frame
import proofs.«160563_g72198400245902_cont_sun_c4_207_12_alg».proof.Proof.Gen.ReferenceIdeal
import proofs.«160563_g72198400245902_cont_sun_c4_207_12_alg».proof.Proof.Gen.ReferenceIdeal.Run
import proofs.«160563_g72198400245902_cont_sun_c4_207_12_alg».proof.Proof.Gen.ReferenceIdeal.Read
import proofs.«160563_g72198400245902_cont_sun_c4_207_12_alg».proof.Proof.Gen.Pre_finite_inputs
import proofs.«160563_g72198400245902_cont_sun_c4_207_12_alg».proof.Proof.K.Launch
import proofs.«160563_g72198400245902_cont_sun_c4_207_12_alg».proof.Proof.KI.Value
import proofs.«160563_g72198400245902_cont_sun_c4_207_12_alg».proof.Proof.RefValue
import Idealize.ShloMosaic.Adequacy
import Idealize.ShloMosaic.Init

noncomputable section

namespace Cert.Proof

open Idealize.ShloMosaic Idealize.SL.Sem Cert.FactLayer

/-- The word-level kernel runs and leaves its arguments as launched. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the product of the argument arrays: the kernel as the running sum of its five
    block products, the reference as its one contraction; the arguments agree, so the results do. -/
theorem algebraic : Cert.algebraic_KernelIdeal_ReferenceIdeal := by
  intro m ρ m' ρ' _ hagree
  refine ⟨fun c => product (Cert.KernelIdeal.Result.xarr m c) (Cert.KernelIdeal.Result.warr m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
